-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LayerSpec.lean ====
/-
  One graph-convolution layer, relu(adj · node · W) + bias, written index by index over the extended reals in the two
  bracketings the two programs use, and the law that joins them.

  At row r and output feature o:
    aggregate first (the kernel):    max (∑ k, (∑ j, adj[r,j] · node[j,k]) · W[k,o]) 0 + bias[o]
    support first (the reference):   max (∑ j, adj[r,j] · (∑ k, node[j,k] · W[k,o])) 0 + bias[o]
  The two double sums agree when every entry of adj, node and W is a real number: both are
  ∑ j, ∑ k, adj[r,j] · node[j,k] · W[k,o], by distributing a factor over a finite sum and exchanging the two sums.
  On the extended reals distributivity fails at the infinities (∞ · (1 + (−1)) is 0 while ∞ · 1 + ∞ · (−1) is −∞ by
  convention), so the law is stated for real entries only. The maximum with zero and the added bias are applied to equal
  arguments and need nothing of the bias.
-/
import Idealize.ShloMosaic.PureOps.Ideal
import Idealize.ShloMosaic.Lib.ValueIdx
import Mathlib.Algebra.BigOperators.Ring.Finset

noncomputable section

namespace Cert.GraphConv

open Idealize.ShloMosaic Idealize.ShloMosaic.ValueIdx

/-! ## Finite sums of reals inside the extended reals -/

/-- The inclusion of the reals in the extended reals commutes with finite sums. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Matrix product is associative on real entries: with a row `a` over `J`, a matrix `n` over `J × K` and a column
    `w` over `K`, contracting `J` first and then `K` gives what contracting `K` first and then `J` gives. -/
theorem rebracket_real {J K : Type*} [Fintype J] [Fintype K] (a : J → ℝ) (n : J → K → ℝ) (w : K → ℝ) :
    ∑ k, (∑ j, a j * n j k) * w k = ∑ j, a j * ∑ k, n j k * w k := by
  simp only [Finset.sum_mul, Finset.mul_sum]
  rw [Finset.sum_comm]
  exact Finset.sum_congr rfl fun j _ => Finset.sum_congr rfl fun k _ => mul_assoc _ _ _

/-- The same for extended reals every one of which is a real number. -/
theorem rebracket {J K : Type*} [Fintype J] [Fintype K] (a : J → EReal) (n : J → K → EReal) (w : K → EReal)
    (ha : ∀ j, ∃ x : ℝ, a j = x) (hn : ∀ j k, ∃ x : ℝ, n j k = x) (hw : ∀ k, ∃ x : ℝ, w k = x) :
    ∑ k, (∑ j, a j * n j k) * w k = ∑ j, a j * ∑ k, n j k * w k := by
  choose a' ha using ha
  choose n' hn using hn
  choose w' hw using hw
  simp only [ha, hn, hw, ← EReal.coe_mul, ← coe_sum]
  exact congrArg _ (rebracket_real a' n' w')

/-! ## The layer, index by index -/

/-- The arrays' index types: 10000 nodes, 128 input and 128 output features. -/
abbrev NodeIdx := (⟨2, ![10000, 128]⟩ : Shape).Idx
abbrev AdjIdx := (⟨2, ![10000, 10000]⟩ : Shape).Idx
abbrev WeightIdx := (⟨2, ![128, 128]⟩ : Shape).Idx
abbrev BiasIdx := (⟨1, ![128]⟩ : Shape).Idx

/-- Aggregate first, at row `r` and output feature `o`: row `r` of `adj · node` is formed, then multiplied by column
    `o` of `W`. -/
def aggregateFirstAt (node : NodeIdx → EReal) (adj : AdjIdx → EReal) (w : WeightIdx → EReal) (b : BiasIdx → EReal)
    (r : Fin 10000) (o : Fin 128) : EReal :=
  max (∑ k : Fin 128, (∑ j : Fin 10000, adj (ix2 r j) * node (ix2 j k)) * w (ix2 k o)) (Ideal.ofBits .f32 0x00000000#32)
    + b (ix1 o)

/-- Support first, at row `r` and output feature `o`: column `o` of `node · W` is formed, then row `r` of `adj` is
    contracted with it. -/
def supportFirstAt (node : NodeIdx → EReal) (adj : AdjIdx → EReal) (w : WeightIdx → EReal) (b : BiasIdx → EReal)
    (r : Fin 10000) (o : Fin 128) : EReal :=
  max (∑ j : Fin 10000, adj (ix2 r j) * ∑ k : Fin 128, node (ix2 j k) * w (ix2 k o)) (Ideal.ofBits .f32 0x00000000#32)
    + b (ix1 o)

/-- The layer as an array, aggregate first. -/
def aggregateFirst (node : NodeIdx → EReal) (adj : AdjIdx → EReal) (w : WeightIdx → EReal) (b : BiasIdx → EReal) :
    NodeIdx → EReal := fun i => aggregateFirstAt node adj w b (i 0) (i 1)

/-- The layer as an array, support first. -/
def supportFirst (node : NodeIdx → EReal) (adj : AdjIdx → EReal) (w : WeightIdx → EReal) (b : BiasIdx → EReal) :
    NodeIdx → EReal := fun i => supportFirstAt node adj w b (i 0) (i 1)

/-- On real entries the two bracketings are one function. -/
theorem aggregateFirst_eq_supportFirst (node : NodeIdx → EReal) (adj : AdjIdx → EReal) (w : WeightIdx → EReal) (b : BiasIdx → EReal)
    (hnode : ∀ i, ∃ x : ℝ, node i = x) (hadj : ∀ i, ∃ x : ℝ, adj i = x) (hw : ∀ i, ∃ x : ℝ, w i = x) :
    aggregateFirst node adj w b = supportFirst node adj w b := by
  funext i
  unfold aggregateFirst supportFirst aggregateFirstAt supportFirstAt
  rw [rebracket (fun j : Fin 10000 => adj (ix2 (i 0) j)) (fun j k => node (ix2 j k)) (fun k : Fin 128 => w (ix2 k (i 1)))
    (fun j => hadj _) (fun j k => hnode _) (fun k => hw _)]

end Cert.GraphConv

end
-- ==== Proof.ReferenceReading.lean ====
/-
  The reference, read index by index, is the support-first layer: its two `dot_general`s are the sums over the 128 input
  features and over the 10000 nodes, its `maximum` against a broadcast zero is the maximum with zero, and its two broadcasts
  of the bias read `bias[o]` at every row.
-/
import proofs.«178454_g70205535420829_cont_sun_m_196_2_alg».proof.Proof.Gen.ReferenceIdeal.Read
import proofs.«178454_g70205535420829_cont_sun_m_196_2_alg».proof.Proof.LayerSpec

noncomputable section

namespace Cert.GraphConv.Reference

open Cert.ReferenceIdeal Cert.ReferenceIdeal.Read Idealize.ShloMosaic Idealize.ShloMosaic.ValueIdx Cert.GraphConv

/-- The outer product's left factor at (r, o) and node j is `adj[r, j]`. -/
theorem adj_at (r : Fin 10000) (o : Fin 128) (j : Fin 10000) : lidx_main_v1 (ix2 r o) j = ix2 r j :=
  funext fun a => Fin.ext (by match a with | ⟨0, _⟩ => rfl | ⟨1, _⟩ => rfl)

/-- … and its right factor is the support matrix at (j, o). -/
theorem support_at (r : Fin 10000) (o : Fin 128) (j : Fin 10000) : ridx_main_v1 (ix2 r o) j = ix2 j o :=
  funext fun a => Fin.ext (by match a with | ⟨0, _⟩ => rfl | ⟨1, _⟩ => rfl)

/-- The support matrix at (j, o) contracts `node[j, k]` … -/
theorem node_at (j : Fin 10000) (o : Fin 128) (k : Fin 128) : lidx_main_v0 (ix2 j o) k = ix2 j k :=
  funext fun a => Fin.ext (by match a with | ⟨0, _⟩ => rfl | ⟨1, _⟩ => rfl)

/-- … with `W[k, o]`. -/
theorem weight_at (j : Fin 10000) (o : Fin 128) (k : Fin 128) : ridx_main_v0 (ix2 j o) k = ix2 k o :=
  funext fun a => Fin.ext (by match a with | ⟨0, _⟩ => rfl | ⟨1, _⟩ => rfl)

/-- The bias, broadcast to one row and then down the rows, is read at the output feature. -/
theorem bias_at (r : Fin 10000) (o : Fin 128) : idx_main_v3 (idx_main_v4 (ix2 r o)) = ix1 o :=
  funext fun a => Fin.ext (by match a with | ⟨0, _⟩ => rfl)

/-- The support matrix at (j, o) is the sum over the input features. -/
theorem support_apply (x0 : (⟨S10000x128, .f32⟩ : BufTy).Contents (Elt Ideal)) (x2 : (⟨S128x128, .f32⟩ : BufTy).Contents (Elt Ideal))
    (j : Fin 10000) (o : Fin 128) :
    val_main_v0 (F := Ideal) x0 x2 (ix2 j o) = ∑ k : Fin 128, x0 (ix2 j k) * x2 (ix2 k o) := by
  rw [val_main_v0_apply]
  simp only [node_at, weight_at]

/-- The reference's result is the support-first layer of its four arguments. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = supportFirst x0 x1 x2 x3 := by
  funext i
  obtain ⟨r, o, rfl⟩ : ∃ (r : Fin 10000) (o : Fin 128), i = ix2 r o := ⟨i 0, i 1, eq_ix2 i⟩
  show _ = supportFirstAt x0 x1 x2 x3 r o
  unfold supportFirstAt
  rw [val_main_v5_apply, val_main_v2_apply, val_main_v1_apply, val_main_call0_v0_apply, val_main_call0_cst_apply,
    val_main_v4_apply, val_main_v3_apply]
  simp only [adj_at, support_at, bias_at, support_apply, Ideal.addf_def, Ideal.maximumf_def, Ideal.ofBits_def]

end Cert.GraphConv.Reference

end
-- ==== Proof.BlockPayload.lean ====
/-
  What the kernel body stores for one block of 400 rows, read at row p of the block and output feature q. With A the
  block of `adj` (400 × 10000), N the whole `node` matrix, W the weights and B the bias as one row:
      max (∑ k, (∑ j, A[p,j] · N[j,k]) · W[k,q]) 0 + B[0,q].
  Each matrix product into a zero accumulator is, at the ideal values, the plain sum over its one contracted axis; the
  index of each factor is read off the product's dimension record one axis at a time. The maximum, the sum with the bias
  and the splat of zero act entry by entry, and the bias row is repeated down the 400 rows.
-/
import proofs.«178454_g70205535420829_cont_sun_m_196_2_alg».proof.Proof.Gen.KernelIdeal.Skeleton
import proofs.«178454_g70205535420829_cont_sun_m_196_2_alg».proof.Proof.LayerSpec
import Idealize.ShloMosaic.PureOps.Ideal.Laws
import Idealize.ShloMosaic.Lib.ValueIdx
import Idealize.ShloMosaic.Lib.Pipeline.Value

noncomputable section

namespace Cert.GraphConv.Block

open Cert.KernelIdeal Cert.KernelIdeal.Gen Idealize.ShloMosaic Idealize.ShloMosaic.ValueIdx Cert.GraphConv

/-! ## The aggregation product: a block of `adj` times `node` -/

theorem agg_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem agg_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem agg_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Row p of the block times column k of `node`: the sum over the 10000 nodes. -/
theorem aggregate_apply (l : FVec Ideal S400x10000 .f32) (r : FVec Ideal S10000x128 .f32) (p : Fin 400) (q : Fin 128) :
    matmul (F := Ideal) (φ₁ := .f32) (φ₂ := .f32) dot_S400x10000_S10000x128_S400x128_1_0_0_1_n_n none l r (constant S400x128 .f32 0x00000000#32) (ix2 p q) = ∑ k : Fin 10000, l (ix2 p k) * r (ix2 k q) := by
  show FloatOps.matmul (F := Ideal) (φ₁ := .f32) (φ₂ := .f32) dot_S400x10000_S10000x128_S400x128_1_0_0_1_n_n none l r (constant S400x128 .f32 0x00000000#32) (ix2 p q) = _
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact agg_lhs_0 _ _
    | ⟨1, _⟩ => exact (agg_lhs_1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (agg_rhs_0 _ _).trans hk
    | ⟨1, _⟩ => exact agg_rhs_1 _ _)
  rw [el, er]

/-! ## The projection product: the aggregated rows times `W` -/

theorem proj_lhs_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem proj_lhs_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem proj_rhs_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem proj_rhs_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Row p of the aggregated block times column q of `W`: the sum over the 128 input features. -/
theorem project_apply (l : FVec Ideal S400x128 .f32) (r : FVec Ideal S128x128 .f32) (p : Fin 400) (q : Fin 128) :
    matmul (F := Ideal) (φ₁ := .f32) (φ₂ := .f32) dot_S400x128_S128x128_S400x128_1_0_0_1_n_n none l r (constant S400x128 .f32 0x00000000#32) (ix2 p q) = ∑ k : Fin 128, l (ix2 p k) * r (ix2 k q) := by
  show FloatOps.matmul (F := Ideal) (φ₁ := .f32) (φ₂ := .f32) dot_S400x128_S128x128_S400x128_1_0_0_1_n_n none l r (constant S400x128 .f32 0x00000000#32) (ix2 p q) = _
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun a => Fin.ext (by
    match a with
    | ⟨0, _⟩ => exact proj_lhs_0 _ _
    | ⟨1, _⟩ => exact (proj_lhs_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun a => Fin.ext (by
    match a with
    | ⟨0, _⟩ => exact (proj_rhs_0 _ _).trans hk
    | ⟨1, _⟩ => exact proj_rhs_1 _ _)
  rw [el, er]

/-! ## The bias row, repeated down the block -/

/-- The one-row bias, cast to its own shape and broadcast to 400 rows, reads `B[0, q]` at (p, q). -/
theorem bias_row_apply (v7 : Vec Ideal S1x128 .f32) (p : Fin 400) (q : Fin 128) :
    broadcastTo S400x128 (shapeCast S1x128 v7 shapeCasts_S1x128_S1x128) broadcasts_S1x128_S400x128 (ix2 p q) = v7 (ix2 0 q) := by
  rw [shapeCast_self]
  exact broadcastTo_apply v7 broadcasts_S1x128_S400x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The stored value -/

/-- The body's one store, at row p of the block and feature q. -/
theorem payload_apply (v0 : Vec Ideal S400x10000 .f32) (v1 : Vec Ideal S10000x128 .f32) (v3 : Vec Ideal S128x128 .f32)
    (v7 : Vec Ideal S1x128 .f32) (p : Fin 400) (q : Fin 128) :
    k0_pay1 (F := Ideal) v0 v1 v3 v7 (ix2 p q)
      = max (∑ k : Fin 128, (∑ j : Fin 10000, v0 (ix2 p j) * v1 (ix2 j k)) * v3 (ix2 k q)) (Ideal.ofBits .f32 0x00000000#32)
          + v7 (ix2 0 q) := by
  unfold k0_pay1
  show FloatOps.addf (FloatOps.maximumf
      (matmul (F := Ideal) (φ₁ := .f32) (φ₂ := .f32) dot_S400x128_S128x128_S400x128_1_0_0_1_n_n none (matmul (F := Ideal) (φ₁ := .f32) (φ₂ := .f32) dot_S400x10000_S10000x128_S400x128_1_0_0_1_n_n none v0 v1 (constant S400x128 .f32 0x00000000#32)) v3 (constant S400x128 .f32 0x00000000#32) (ix2 p q))
      (broadcast S400x128 (Scalar.ofBits (F := Ideal) .f32 0x00000000#32) (ix2 p q)))
    (broadcastTo S400x128 (shapeCast S1x128 v7 shapeCasts_S1x128_S1x128) broadcasts_S1x128_S400x128 (ix2 p q)) = _
  rw [project_apply, bias_row_apply, broadcast_apply]
  simp only [aggregate_apply]
  rfl

/-! ## The stored block as rows of the layer -/

/-- When the block of `adj` holds rows `base … base + 399`, the other operands are the whole `node`, `W` and the bias as
    one row, the stored value at row p of the block and feature q is the aggregate-first layer at row `base + p` and
    feature q. -/
theorem block_value (node : NodeIdx → EReal) (adj : AdjIdx → EReal) (w : WeightIdx → EReal) (b : BiasIdx → EReal)
    (v0 : Vec Ideal S400x10000 .f32) (v1 : Vec Ideal S10000x128 .f32) (v3 : Vec Ideal S128x128 .f32) (v7 : Vec Ideal S1x128 .f32)
    (base : Nat) (h0 : ∀ (p : Fin 400) (j r : Fin 10000), r.val = base + p.val → v0 (ix2 p j) = adj (ix2 r j))
    (h1 : v1 = node) (h3 : v3 = w) (h7 : ∀ q : Fin 128, v7 (ix2 0 q) = b (ix1 q))
    (y : S400x128.Idx) (i : NodeIdx) (hi0 : (i 0).val = base + (y 0).val) (hi1 : (i 1).val = (y 1).val) :
    k0_pay1 (F := Ideal) v0 v1 v3 v7 y = aggregateFirst node adj w b i := by
  obtain ⟨p, q, rfl⟩ : ∃ (p : Fin 400) (q : Fin 128), y = ix2 p q := ⟨y 0, y 1, eq_ix2 y⟩
  obtain ⟨r, o, rfl⟩ : ∃ (r : Fin 10000) (o : Fin 128), i = ix2 r o := ⟨i 0, i 1, eq_ix2 i⟩
  obtain rfl : o = q := Fin.ext hi1
  subst h1 h3
  rw [payload_apply, h7]
  show _ = aggregateFirstAt v1 adj v3 b r o
  unfold aggregateFirstAt
  simp only [fun j => h0 p j r hi0]

end Cert.GraphConv.Block

end
-- ==== Proof.BlocksToArray.lean ====
/-
  From the 25 stored blocks to the whole result array. Grid point t stages rows 400·t … 400·t + 399 of `adj` and the whole
  of `node`, `W` and the bias (reshaped to one row before the launch), and writes back rows 400·t … 400·t + 399 of the
  result. Each block written back is the aggregate-first layer restricted to those rows, and the 25 row ranges tile the
  10000 rows (row r lies in block r / 400), so after the run the result array is the aggregate-first layer of the four
  argument arrays.
-/
import proofs.«178454_g70205535420829_cont_sun_m_196_2_alg».proof.Proof.Gen.KernelIdeal.Value
import proofs.«178454_g70205535420829_cont_sun_m_196_2_alg».proof.Proof.BlockPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.GraphConv.Kernel

open Cert.KernelIdeal Cert.KernelIdeal.Gen Cert.KernelIdeal.Value Idealize.ShloMosaic.ValueIdx Cert.GraphConv

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at point t: the `adj` and result blocks at block row t, the resident operands at
    block (0, 0). Decided over the 25 points. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The result array the run ends with: the aggregate-first layer of the four arguments as launched. -/
abbrev layer (c : Dev nD) : Buf (Elt Ideal) ((c : Thread nD τ).loc main_v0) :=
  aggregateFirst (m ((c : Thread nD τ).loc main_arg0)) (m ((c : Thread nD τ).loc main_arg1)) (m ((c : Thread nD τ).loc main_arg2)) (m ((c : Thread nD τ).loc main_arg3))

/-! ## The staged blocks -/

/-- The `adj` block at point t, row p, is row 400·t + p of `adj`. -/
theorem adj_block (c : Dev nD) (t : Fin cfg0.N) (p : Fin 400) (j r : Fin 10000) (hr : r.val = t.val * 400 + p.val) :
    (iblk m c 0 t : Vec Ideal S400x10000 .f32) (ix2 p j) = ((m ((c : Thread nD τ).loc main_arg1)) : S10000x10000.Idx → EReal) (ix2 r j) := by
  obtain ⟨e0, e1, -⟩ := block_index t
  rw [← V_main_arg1 m c]
  show V m c main_arg1 (((cfg0.win 0).blk t).view.emb (ix2 p j)) = V m c main_arg1 (ix2 r j)
  refine congrArg _ (funext fun a => Fin.ext ?_)
  match a with
  | ⟨0, _⟩ => show win0_0.index t (0 : Fin 2) * 400 + 1 * p.val = r.val; omega
  | ⟨1, _⟩ => show win0_0.index t (1 : Fin 2) * 10000 + 1 * j.val = j.val; omega

/-- The `node` block is the whole of `node` at every point. -/
theorem node_block (c : Dev nD) (t : Fin cfg0.N) :
    (iblk m c 1 t : Vec Ideal S10000x128 .f32) = (m ((c : Thread nD τ).loc main_arg0)) := by
  obtain ⟨-, -, e0, e1, -⟩ := block_index t
  rw [← V_main_arg0 m c]
  funext y
  show V m c main_arg0 (((cfg0.win 1).blk t).view.emb y) = V m c main_arg0 y
  refine congrArg _ (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The `W` block is the whole of `W` at every point. -/
theorem weight_block (c : Dev nD) (t : Fin cfg0.N) :
    (iblk m c 2 t : Vec Ideal S128x128 .f32) = (m ((c : Thread nD τ).loc main_arg2)) := by
  obtain ⟨-, -, -, -, e0, e1, -⟩ := block_index t
  rw [← V_main_arg2 m c]
  funext y
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Before the launch the bias is reshaped to one row. -/
theorem bias_row_at_entry (c : Dev nD) :
    (V m c main_call0_v0 : S1x128.Idx → EReal) = shapeCast S1x128 (m ((c : Thread nD τ).loc main_arg3)) shapeCasts_S128_S1x128 := by
  dsimp only [V, hostOps0]
  after_results
  rfl

/-- The bias block, at its one row and feature q, is `bias[q]`. -/
theorem bias_block (c : Dev nD) (t : Fin cfg0.N) (q : Fin 128) :
    (iblk m c 3 t : Vec Ideal S1x128 .f32) (ix2 0 q) = ((m ((c : Thread nD τ).loc main_arg3)) : S128.Idx → EReal) (ix1 q) := by
  obtain ⟨-, -, -, -, -, -, e0, e1, -⟩ := block_index t
  show V m c main_call0_v0 (((cfg0.win 3).blk t).view.emb (ix2 0 q)) = _
  have hemb : ((cfg0.win 3).blk t).view.emb (ix2 (0 : Fin 1) q) = ix2 0 q := funext fun a => Fin.ext (by
    match a with
    | ⟨0, _⟩ => show win0_3.index t (0 : Fin 2) * 1 + 1 * 0 = 0; omega
    | ⟨1, _⟩ => show win0_3.index t (1 : Fin 2) * 128 + 1 * q.val = q.val; omega)
  rw [hemb, bias_row_at_entry]
  refine shapeCast_apply _ _ (ix2 0 q) (ix1 q) ?_
  rw [Shape.rowMajor_val_one, Shape.rowMajor_val_two]
  show q.val = 0 * 128 + q.val
  omega

/-! ## What each point writes back -/

/-- Point t writes back block t of the layer. -/
theorem flushed_eq (c : Dev nD) (t : Fin cfg0.N) :
    (dats m 0 c).flushed 4 t = ((cfg0.win 4).blk t).view.read (Elt Ideal) (layer m c) := by
  rw [flushed4]
  unfold out0_4
  rw [View.canon_unit_zero origin]
  simp only [View.ld_unit_zero (S := S400x10000) origin, View.ld_unit_zero (S := S10000x128) origin,
    View.ld_unit_zero (S := S128x128) origin, View.ld_unit_zero (S := S1x128) origin]
  obtain ⟨-, -, -, -, -, -, -, -, e0, e1⟩ := block_index t
  funext y
  show k0_pay1 (F := Ideal) (iblk m c 0 t) (iblk m c 1 t) (iblk m c 2 t) (iblk m c 3 t) y
    = layer m c (((cfg0.win 4).blk t).view.emb y)
  refine Block.block_value (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) (t.val * 400)
    (fun p j r hr => adj_block m c t p j r hr) (node_block m c t) (weight_block m c t) (fun q => bias_block m c t q)
    y (((cfg0.win 4).blk t).view.emb y) ?_ ?_
  · show win0_4.index t (0 : Fin 2) * 400 + 1 * (y 0).val = t.val * 400 + (y 0).val; omega
  · show win0_4.index t (1 : Fin 2) * 128 + 1 * (y 1).val = (y 1).val; omega

/-! ## The blocks tile the array -/

/-- An index of the result is in point t's block iff each coordinate is in the block's range on its axis. -/
theorem mem_block (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Row r of the result lies in the block of point r / 400. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, -, e0, e1⟩ := block_index t
  refine ⟨t, flush0_4 t, ?_⟩
  rw [mem_block]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- So the result array ends holding the layer. -/
theorem final (c : Dev nD) : (dats m 0 c).arrAt 4 cfg0.N = layer m c :=
  (dats m 0 c).arrAt_eq_of_cover 4 (layer m c) (fun t _ => flushed_eq m c t) cover

/-! ## The run, read -/

/-- Every weakly fair execution of the kernel's program ends with the result array at the aggregate-first layer of the
    arguments, and the arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.GraphConv.Kernel

end
-- ==== Proof.FiniteInputs.lean ====
/-
  What the precondition gives: every entry of the four argument arrays is a real number. The printed predicate is the
  conjunction, over the four arrays, of "every |x| is below +∞"; each conjunct is a reduction by `and` over all of an
  array's indices, so it holds entry by entry, and an extended real whose absolute value max x (−x) is below +∞ is
  neither +∞ nor −∞.
-/
import proofs.«178454_g70205535420829_cont_sun_m_196_2_alg».proof.Proof.Gen.Pre_finite_inputs
import Idealize.ShloMosaic.Lib.ReduceAll
import Idealize.ShloMosaic.Lib.ValueIdx
import Idealize.ShloMosaic.PureOps.Ideal

noncomputable section

namespace Cert.GraphConv.Finite

open Idealize.ShloMosaic Cert.Pre_finite_inputs

/-- The rank-0 shape has one index. -/
instance : Subsingleton S_.Idx := ⟨fun a b => funext fun d => d.elim0⟩

/-- The pattern the predicate compares against denotes +∞. -/
theorem inf_pattern : Ideal.ofBits .f32 0x7F800000#32 = ⊤ := by simp [Ideal.ofBits, Ideal.ieee]

/-- An extended real whose absolute value compares below +∞ is a real number. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = r := by
  have hlt : max x (-x) < (⊤ : EReal) := by
    by_contra hn
    have h' : BitVec.ofBool (decide (max x (-x) < Ideal.ofBits .f32 0x7F800000#32)) = 1#1 := h
    rw [inf_pattern, decide_eq_false hn] at h'
    exact absurd h' (by decide)
  induction x using EReal.rec with
  | bot => exact absurd hlt (by simp)
  | coe r => exact ⟨r, rfl⟩
  | top => exact absurd hlt (by simp)

/-- Under the precondition every entry of every argument array is a real number. -/
theorem entries_real (a0 : FVec Ideal S10000x128 .f32) (a1 : FVec Ideal S10000x10000 .f32) (a2 : FVec Ideal S128x128 .f32)
    (a3 : FVec Ideal S128 .f32) (h : fn (F := Ideal) a0 a1 a2 a3 = fun _ => 1#1) :
    (∀ i, ∃ x : ℝ, a0 i = x) ∧ (∀ i, ∃ x : ℝ, a1 i = x) ∧ (∀ i, ∃ x : ℝ, a2 i = x) ∧ (∀ i, ∃ x : ℝ, a3 i = x) := by
  have h0 := congrFun h ValueIdx.ix0
  dsimp only [fn, fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i),
    fun i => real_of_abs_lt_inf _ (Host.reduce_andi_all _ _ _ _ _ e3 i)⟩

end Cert.GraphConv.Finite

end
-- ==== Proof.lean ====
/-
  One graph-convolution layer: the kernel computes relu((adj · node) · W) + bias block of 400 rows by block, the reference
  relu(adj · (node · W)) + bias on whole arrays; over the extended reals, for finite inputs, they are the same array.

  The kernel's side: each of the 25 grid points multiplies its 400 rows of `adj` by the whole of `node`, the product by
  `W`, takes the maximum with zero and adds the bias row; the 25 blocks tile the result, which is therefore the
  aggregate-first layer of the arguments (BlockPayload, BlocksToArray). The reference's side: its two matrix products,
  maximum and broadcast sum are the support-first layer (ReferenceReading). The two bracketings of the double sum
  ∑ j ∑ k adj[r,j] · node[j,k] · W[k,o] agree because the precondition makes every entry a real number (FiniteInputs), where
  multiplication distributes over finite sums (LayerSpec); at an infinite entry it would not. Nothing was rewritten between
  the kernel and its idealization, so that claim is empty; the three programs' frames are their runs with the result
  dropped.
-/
import proofs.«178454_g70205535420829_cont_sun_m_196_2_alg».proof.Defs
import proofs.«178454_g70205535420829_cont_sun_m_196_2_alg».proof.Proof.Gen.Kernel
import proofs.«178454_g70205535420829_cont_sun_m_196_2_alg».proof.Proof.Gen.Kernel.Skeleton
import proofs.«178454_g70205535420829_cont_sun_m_196_2_alg».proof.Proof.Gen.Kernel.Launch
import proofs.«178454_g70205535420829_cont_sun_m_196_2_alg».proof.Proof.Gen.Kernel.Points
import proofs.«178454_g70205535420829_cont_sun_m_196_2_alg».proof.Proof.Gen.Kernel.Frame
import proofs.«178454_g70205535420829_cont_sun_m_196_2_alg».proof.Proof.Gen.KernelIdeal
import proofs.«178454_g70205535420829_cont_sun_m_196_2_alg».proof.Proof.Gen.KernelIdeal.Skeleton
import proofs.«178454_g70205535420829_cont_sun_m_196_2_alg».proof.Proof.Gen.KernelIdeal.Launch
import proofs.«178454_g70205535420829_cont_sun_m_196_2_alg».proof.Proof.Gen.KernelIdeal.Points
import proofs.«178454_g70205535420829_cont_sun_m_196_2_alg».proof.Proof.Gen.KernelIdeal.Frame
import proofs.«178454_g70205535420829_cont_sun_m_196_2_alg».proof.Proof.Gen.ReferenceIdeal
import proofs.«178454_g70205535420829_cont_sun_m_196_2_alg».proof.Proof.Gen.Pre_finite_inputs
import proofs.«178454_g70205535420829_cont_sun_m_196_2_alg».proof.Proof.Gen.KernelIdeal.Value
import proofs.«178454_g70205535420829_cont_sun_m_196_2_alg».proof.Proof.Gen.ReferenceIdeal.Run
import proofs.«178454_g70205535420829_cont_sun_m_196_2_alg».proof.Proof.Gen.ReferenceIdeal.Read
import proofs.«178454_g70205535420829_cont_sun_m_196_2_alg».proof.Proof.LayerSpec
import proofs.«178454_g70205535420829_cont_sun_m_196_2_alg».proof.Proof.ReferenceReading
import proofs.«178454_g70205535420829_cont_sun_m_196_2_alg».proof.Proof.BlockPayload
import proofs.«178454_g70205535420829_cont_sun_m_196_2_alg».proof.Proof.BlocksToArray
import proofs.«178454_g70205535420829_cont_sun_m_196_2_alg».proof.Proof.FiniteInputs
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- From memories that agree on finite arguments, the kernel ends with the aggregate-first layer and the reference with the
    support-first layer of the same arrays: one array, since every entry is real. -/
theorem algebraic : Cert.algebraic_KernelIdeal_ReferenceIdeal := by
  intro m ρ m' ρ' hpre hagree
  refine ⟨fun c => Cert.GraphConv.Kernel.layer m c, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hnode, hadj, hw, -⟩ := Cert.GraphConv.Finite.entries_real _ _ _ _ (hpre c)
  rw [Cert.ReferenceIdeal.Read.val_main_v5_eq, Cert.GraphConv.Reference.result_eq, (hagree c).1, (hagree c).2.1,
    (hagree c).2.2.1, (hagree c).2.2.2]
  exact (Cert.GraphConv.aggregateFirst_eq_supportFirst _ _ _ _ hnode hadj hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
